-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S4096x2048 : Shape := ⟨2, ![4096, 2048]⟩
abbrev S4096 : Shape := ⟨1, ![4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2048x1024 .f32) (main_arg1 : FVec F S2048x1024 .f32) (main_arg2 : FVec F S2048x1024 .f32) (main_arg3 : FVec F S4096x2048 .f32) (main_arg4 : FVec F S4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S2048x1024 : Shape := ⟨2, ![2048, 1024]⟩
abbrev S4096x2048 : Shape := ⟨2, ![4096, 2048]⟩
abbrev S4096 : Shape := ⟨1, ![4096]⟩
abbrev S2048x2048 : Shape := ⟨2, ![2048, 2048]⟩
abbrev S256x256 : Shape := ⟨2, ![256, 256]⟩
abbrev S4096x256 : Shape := ⟨2, ![4096, 256]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4096x2048, .f32⟩
  | .hbm, ⟨4, _⟩ => ⟨S4096, .f32⟩
  | .hbm, ⟨5, _⟩ => ⟨S2048x2048, .f32⟩
  | .hbm, ⟨6, _⟩ => ⟨S2048x1024, .f32⟩
  | .hbm, ⟨7, _⟩ => ⟨S2048x1024, .f32⟩
  | .local _ .vmem, ⟨0, _⟩ => ⟨S256x256, .f32⟩
  | .local _ .vmem, ⟨1, _⟩ => ⟨S256x256, .f32⟩
  | .local _ .vmem, ⟨2, _⟩ => ⟨S4096x256, .f32⟩
  | .local _ .vmem, ⟨3, _⟩ => ⟨S4096x256, .f32⟩
  | .local _ .vmem, ⟨4, _⟩ => ⟨S4096, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x4096, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S2048x1024_S2048x1024_S2048x2048_d1 : Shape.Concatenates [S2048x1024, S2048x1024] S2048x2048 1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S256x1024_S256x1024_0_0 : ∀ a, (![0, 0] : Fin 2 → Nat) a + S256x1024.size a ≤ S256x1024.size a
  h_S256x1024 : 0 < S256x1024.numel
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x2048.size a
  hwx0_0 : ∀ i : grid0.Coords, EltTy.bits .f32 = 32 ∨ (Rect.block (s := S2048x2048) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x2048.size a
  hwx0_1 : ∀ i : grid0.Coords, EltTy.bits .f32 = 32 ∨ (Rect.block (s := S4096x2048) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .f32 = 32 ∨ (Rect.block (s := S2048x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .f32 = 32 ∨ (Rect.block (s := S2048x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .f32 = 32 ∨ (Rect.block (s := S2048x1024) S256x1024.size (cc0_transform_5 i) (hinb0_5 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x1024 : Shape := ⟨2, ![2048, 1024]⟩
abbrev S4096x2048 : Shape := ⟨2, ![4096, 2048]⟩
abbrev S4096 : Shape := ⟨1, ![4096]⟩
abbrev S2048x2048 : Shape := ⟨2, ![2048, 2048]⟩
abbrev S_ : Shape := ⟨0, ![]⟩
abbrev S2048x4096 : Shape := ⟨2, ![2048, 4096]⟩
abbrev S1x4096 : Shape := ⟨2, ![1, 4096]⟩

abbrev nBuf : Space → Nat
  | .hbm => 180
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S4096x2048, .f32⟩
  | 4 => ⟨S4096, .f32⟩
  | 5 => ⟨S2048x2048, .f32⟩
  | 6 => ⟨S_, .f32⟩
  | 7 => ⟨S2048x2048, .f32⟩
  | 8 => ⟨S2048x2048, .f32⟩
  | 9 => ⟨S2048x2048, .f32⟩
  | 10 => ⟨S_, .f32⟩
  | 11 => ⟨S_, .f32⟩
  | 12 => ⟨S_, .f32⟩
  | 13 => ⟨S2048x2048, .f32⟩
  | 14 => ⟨S2048x2048, .f32⟩
  | 15 => ⟨S_, .f32⟩
  | 16 => ⟨S2048x2048, .f32⟩
  | 17 => ⟨S2048x2048, .f32⟩
  | 18 => ⟨S_, .f32⟩
  | 19 => ⟨S2048x2048, .f32⟩
  | 20 => ⟨S2048x2048, .f32⟩
  | 21 => ⟨S_, .f32⟩
  | 22 => ⟨S4096x2048, .f32⟩
  | 23 => ⟨S4096x2048, .f32⟩
  | 24 => ⟨S4096x2048, .f32⟩
  | 25 => ⟨S_, .f32⟩
  | 26 => ⟨S_, .f32⟩
  | 27 => ⟨S_, .f32⟩
  | 28 => ⟨S4096x2048, .f32⟩
  | 29 => ⟨S4096x2048, .f32⟩
  | 30 => ⟨S_, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S_, .f32⟩
  | 37 => ⟨S4096, .f32⟩
  | 38 => ⟨S4096, .f32⟩
  | 39 => ⟨S4096, .f32⟩
  | 40 => ⟨S_, .f32⟩
  | 41 => ⟨S_, .f32⟩
  | 42 => ⟨S_, .f32⟩
  | 43 => ⟨S4096, .f32⟩
  | 44 => ⟨S4096, .f32⟩
  | 45 => ⟨S_, .f32⟩
  | 46 => ⟨S4096, .f32⟩
  | 47 => ⟨S4096, .f32⟩
  | 48 => ⟨S_, .f32⟩
  | 49 => ⟨S4096, .f32⟩
  | 50 => ⟨S4096, .f32⟩
  | 51 => ⟨S2048x4096, .f32⟩
  | 52 => ⟨S2048x4096, .f32⟩
  | 53 => ⟨S1x4096, .f32⟩
  | 54 => ⟨S2048x4096, .f32⟩
  | 55 => ⟨S2048x4096, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S_, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S2048x1024, .f32⟩
  | 72 => ⟨S_, .f32⟩
  | 73 => ⟨S_, .f32⟩
  | 74 => ⟨S_, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S2048x1024, .f32⟩
  | 85 => ⟨S_, .f32⟩
  | 86 => ⟨S2048x1024, .f32⟩
  | 87 => ⟨S2048x1024, .f32⟩
  | 88 => ⟨S_, .f32⟩
  | 89 => ⟨S2048x1024, .f32⟩
  | 90 => ⟨S2048x1024, .f32⟩
  | 91 => ⟨S_, .f32⟩
  | 92 => ⟨S2048x1024, .f32⟩
  | 93 => ⟨S2048x1024, .f32⟩
  | 94 => ⟨S2048x1024, .f32⟩
  | 95 => ⟨S_, .f32⟩
  | 96 => ⟨S_, .f32⟩
  | 97 => ⟨S_, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S2048x1024, .f32⟩
  | 107 => ⟨S_, .f32⟩
  | 108 => ⟨S2048x1024, .f32⟩
  | 109 => ⟨S2048x1024, .f32⟩
  | 110 => ⟨S2048x1024, .f32⟩
  | 111 => ⟨S_, .f32⟩
  | 112 => ⟨S_, .f32⟩
  | 113 => ⟨S_, .f32⟩
  | 114 => ⟨S2048x1024, .f32⟩
  | 115 => ⟨S2048x1024, .f32⟩
  | 116 => ⟨S_, .f32⟩
  | 117 => ⟨S2048x1024, .f32⟩
  | 118 => ⟨S2048x1024, .f32⟩
  | 119 => ⟨S_, .f32⟩
  | 120 => ⟨S2048x1024, .f32⟩
  | 121 => ⟨S2048x1024, .f32⟩
  | 122 => ⟨S2048x1024, .f32⟩
  | 123 => ⟨S2048x1024, .f32⟩
  | 124 => ⟨S_, .f32⟩
  | 125 => ⟨S2048x1024, .f32⟩
  | 126 => ⟨S2048x1024, .f32⟩
  | 127 => ⟨S_, .f32⟩
  | _ => ⟨S2048x1024, .f32⟩

abbrev hbmTy0_1 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S2048x1024, .f32⟩
  | 6 => ⟨S_, .f32⟩
  | 7 => ⟨S_, .f32⟩
  | 8 => ⟨S_, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S_, .f32⟩
  | 23 => ⟨S_, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S2048x1024, .f32⟩
  | 40 => ⟨S_, .f32⟩
  | 41 => ⟨S_, .f32⟩
  | 42 => ⟨S_, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_cst_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_cst_5 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v10 : Ref sig .tc := ⟨.hbm, 32, rfl⟩
abbrev main_cst_6 : Ref sig .tc := ⟨.hbm, 33, rfl⟩
abbrev main_v11 : Ref sig .tc := ⟨.hbm, 34, rfl⟩
abbrev main_v12 : Ref sig .tc := ⟨.hbm, 35, rfl⟩
abbrev main_cst_7 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_8 : Ref sig .tc := ⟨.hbm, 40, rfl⟩
abbrev main_cst_9 : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_call5_v3 : Ref sig .tc := ⟨.hbm, 45, rfl⟩
abbrev main_call5_v4 : Ref sig .tc := ⟨.hbm, 46, rfl⟩
abbrev main_v16 : Ref sig .tc := ⟨.hbm, 47, rfl⟩
abbrev main_cst_10 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_11 : Ref sig .tc := ⟨.hbm, 62, rfl⟩
abbrev main_v30 : Ref sig .tc := ⟨.hbm, 63, rfl⟩
abbrev main_v31 : Ref sig .tc := ⟨.hbm, 64, rfl⟩
abbrev main_cst_12 : Ref sig .tc := ⟨.hbm, 65, rfl⟩
abbrev main_v32 : Ref sig .tc := ⟨.hbm, 66, rfl⟩
abbrev main_v33 : Ref sig .tc := ⟨.hbm, 67, rfl⟩
abbrev main_cst_13 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_14 : Ref sig .tc := ⟨.hbm, 72, rfl⟩
abbrev main_cst_15 : Ref sig .tc := ⟨.hbm, 73, rfl⟩
abbrev main_call7_v0 : Ref sig .tc := ⟨.hbm, 74, rfl⟩
abbrev main_call7_v1 : Ref sig .tc := ⟨.hbm, 75, rfl⟩
abbrev main_call7_v2 : Ref sig .tc := ⟨.hbm, 76, rfl⟩
abbrev main_call7_v3 : Ref sig .tc := ⟨.hbm, 77, rfl⟩
abbrev main_call7_v4 : Ref sig .tc := ⟨.hbm, 78, rfl⟩
abbrev main_v37 : Ref sig .tc := ⟨.hbm, 79, rfl⟩
abbrev main_cst_16 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_17 : Ref sig .tc := ⟨.hbm, 85, rfl⟩
abbrev main_v42 : Ref sig .tc := ⟨.hbm, 86, rfl⟩
abbrev main_v43 : Ref sig .tc := ⟨.hbm, 87, rfl⟩
abbrev main_cst_18 : Ref sig .tc := ⟨.hbm, 88, rfl⟩
abbrev main_v44 : Ref sig .tc := ⟨.hbm, 89, rfl⟩
abbrev main_v45 : Ref sig .tc := ⟨.hbm, 90, rfl⟩
abbrev main_cst_19 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_20 : Ref sig .tc := ⟨.hbm, 95, rfl⟩
abbrev main_cst_21 : Ref sig .tc := ⟨.hbm, 96, rfl⟩
abbrev main_call9_v0 : Ref sig .tc := ⟨.hbm, 97, rfl⟩
abbrev main_call9_v1 : Ref sig .tc := ⟨.hbm, 98, rfl⟩
abbrev main_call9_v2 : Ref sig .tc := ⟨.hbm, 99, rfl⟩
abbrev main_call9_v3 : Ref sig .tc := ⟨.hbm, 100, rfl⟩
abbrev main_call9_v4 : Ref sig .tc := ⟨.hbm, 101, rfl⟩
abbrev main_v49 : Ref sig .tc := ⟨.hbm, 102, rfl⟩
abbrev main_cst_22 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_23 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_24 : Ref sig .tc := ⟨.hbm, 111, rfl⟩
abbrev main_cst_25 : Ref sig .tc := ⟨.hbm, 112, rfl⟩
abbrev main_call11_v0 : Ref sig .tc := ⟨.hbm, 113, rfl⟩
abbrev main_call11_v1 : Ref sig .tc := ⟨.hbm, 114, rfl⟩
abbrev main_call11_v2 : Ref sig .tc := ⟨.hbm, 115, rfl⟩
abbrev main_call11_v3 : Ref sig .tc := ⟨.hbm, 116, rfl⟩
abbrev main_call11_v4 : Ref sig .tc := ⟨.hbm, 117, rfl⟩
abbrev main_v56 : Ref sig .tc := ⟨.hbm, 118, rfl⟩
abbrev main_cst_26 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_27 : Ref sig .tc := ⟨.hbm, 124, rfl⟩
abbrev main_v61 : Ref sig .tc := ⟨.hbm, 125, rfl⟩
abbrev main_v62 : Ref sig .tc := ⟨.hbm, 126, rfl⟩
abbrev main_cst_28 : Ref sig .tc := ⟨.hbm, 127, rfl⟩
abbrev main_v63 : Ref sig .tc := ⟨.hbm, 128, rfl⟩
abbrev main_v64 : Ref sig .tc := ⟨.hbm, 129, rfl⟩
abbrev main_cst_29 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_30 : Ref sig .tc := ⟨.hbm, 134, rfl⟩
abbrev main_cst_31 : Ref sig .tc := ⟨.hbm, 135, rfl⟩
abbrev main_call13_v0 : Ref sig .tc := ⟨.hbm, 136, rfl⟩
abbrev main_call13_v1 : Ref sig .tc := ⟨.hbm, 137, rfl⟩
abbrev main_call13_v2 : Ref sig .tc := ⟨.hbm, 138, rfl⟩
abbrev main_call13_v3 : Ref sig .tc := ⟨.hbm, 139, rfl⟩
abbrev main_call13_v4 : Ref sig .tc := ⟨.hbm, 140, rfl⟩
abbrev main_v68 : Ref sig .tc := ⟨.hbm, 141, rfl⟩
abbrev main_cst_32 : Ref sig .tc := ⟨.hbm, 142, rfl⟩
abbrev main_v69 : Ref sig .tc := ⟨.hbm, 143, rfl⟩
abbrev main_v70 : Ref sig .tc := ⟨.hbm, 144, rfl⟩
abbrev main_cst_33 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_34 : Ref sig .tc := ⟨.hbm, 149, rfl⟩
abbrev main_cst_35 : Ref sig .tc := ⟨.hbm, 150, rfl⟩
abbrev main_call15_v0 : Ref sig .tc := ⟨.hbm, 151, rfl⟩
abbrev main_call15_v1 : Ref sig .tc := ⟨.hbm, 152, rfl⟩
abbrev main_call15_v2 : Ref sig .tc := ⟨.hbm, 153, rfl⟩
abbrev main_call15_v3 : Ref sig .tc := ⟨.hbm, 154, rfl⟩
abbrev main_call15_v4 : Ref sig .tc := ⟨.hbm, 155, rfl⟩
abbrev main_v74 : Ref sig .tc := ⟨.hbm, 156, rfl⟩
abbrev main_cst_36 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_cst_37 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_cst_38 : Ref sig .tc := ⟨.hbm, 168, rfl⟩
abbrev main_cst_39 : Ref sig .tc := ⟨.hbm, 169, rfl⟩
abbrev main_call17_v0 : Ref sig .tc := ⟨.hbm, 170, rfl⟩
abbrev main_call17_v1 : Ref sig .tc := ⟨.hbm, 171, rfl⟩
abbrev main_call17_v2 : Ref sig .tc := ⟨.hbm, 172, rfl⟩
abbrev main_call17_v3 : Ref sig .tc := ⟨.hbm, 173, rfl⟩
abbrev main_call17_v4 : Ref sig .tc := ⟨.hbm, 174, rfl⟩
abbrev main_v84 : Ref sig .tc := ⟨.hbm, 175, rfl⟩
abbrev main_cst_40 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩

abbrev nD : Nat := 1
abbrev τ : Topo := Topo.v7x

variable {F : FTy → Type} [FloatOps F]

class Facts₀ : Prop where
  concatenates_S2048x1024_S2048x1024_S2048x2048_d1 : Shape.Concatenates [S2048x1024, S2048x1024] S2048x2048 1
  bcast_S_S2048x2048 : S_.BroadcastsInDim S2048x2048 (![] : Fin 0 → Fin S2048x2048.rank)
  bcast_S_S4096x2048 : S_.BroadcastsInDim S4096x2048 (![] : Fin 0 → Fin S4096x2048.rank)
  bcast_S_S4096 : S_.BroadcastsInDim S4096 (![] : Fin 0 → Fin S4096.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  slices_S2048x4096_S2048x1024_0_0 : S2048x4096.Slices ![0, 0] S2048x1024
  slices_S2048x4096_S2048x1024_0_1024 : S2048x4096.Slices ![0, 1024] S2048x1024
  slices_S2048x4096_S2048x1024_0_2048 : S2048x4096.Slices ![0, 2048] S2048x1024
  slices_S2048x4096_S2048x1024_0_3072 : S2048x4096.Slices ![0, 3072] S2048x1024
  bcast_S_S2048x1024 : S_.BroadcastsInDim S2048x1024 (![] : Fin 0 → Fin S2048x1024.rank)
  dot_S2048x2048_S2048x4096_S2048x4096_1_0_0_1_n_n_wf : DotDims.WF S2048x2048 S2048x4096 S2048x4096 [1] [0] [0] [1] [] []

variable [Facts₀]

def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf

class Facts : Prop extends Facts₀ where

variable [Facts]
-- ==== Proof.Pieces.lean ====
/-
  What one run of the kernel body leaves behind, case by case, as pure terms of the blocks it loaded.

  The body has three cases.  At the first step of a row block's reduction it stores zeros into the accumulator and then
  adds the step's block product: the accumulator ends at (zeros + product).  At a middle step it adds the step's block
  product to what the step before left.  At the last step it does the same and then computes both results from the
  accumulator it has just stored, the bias block and the old cell state's block.
-/
import proofs.«138739_j49331994362494_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First step: the accumulator is zeros plus the block product. -/
theorem scratch_A (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x4096 .f32) (harg8 : arg8.IsWhole) (hc0 : cond0_0 i) (hc1 : ¬cond0_1 i) (x0 : Vec F S256x256 .f32) (x1 : Vec F S4096x256 .f32) (x2 : Vec F S4096 .f32) (x3 : Vec F S256x1024 .f32) :
    sout0_A_0 c i arg2 harg2 arg3 harg3 arg4 harg4 arg5 harg5 arg6 harg6 arg7 harg7 arg8 harg8 hc0 hc1 x0 x1 x2 x3 = k0_pay9 x0 x1 (k0_pay8 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x4096) hz2]
  simp only [View.readAt_eq_ld, harg2.read_unread, harg3.read_unread, harg4.read_unread, harg5.read_unread, harg8.read_unread,
    View.ld_unit_zero (S := S256x256) hz2, View.ld_unit_zero (S := S4096x256) hz2, View.ld_unit_zero (S := S256x4096) hz2,
    View.ld_unit_zero (S := S256x1024) hz2, View.ld_unit_zero (S := S4096) hz1, View.readCov_unit_zero (S := S256x4096) _ hz2]

/-- Middle step: the accumulator is what the step before left plus the block product. -/
theorem scratch_B (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x4096 .f32) (harg8 : arg8.IsWhole) (hc0 : ¬cond0_0 i) (hc1 : ¬cond0_1 i) (x0 : Vec F S256x256 .f32) (x1 : Vec F S4096x256 .f32) (x2 : Vec F S4096 .f32) (x3 : Vec F S256x1024 .f32) (xs0 : Vec F S256x4096 .f32) :
    sout0_B_0 c i arg2 harg2 arg3 harg3 arg4 harg4 arg5 harg5 arg6 harg6 arg7 harg7 arg8 harg8 hc0 hc1 x0 x1 x2 x3 xs0 = k0_pay9 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg8.read_unread,
    View.ld_unit_zero (S := S256x256) hz2, View.ld_unit_zero (S := S4096x256) hz2, View.ld_unit_zero (S := S256x4096) hz2,
    View.ld_unit_zero (S := S256x1024) hz2, View.ld_unit_zero (S := S4096) hz1, View.readCov_unit_zero (S := S256x4096) _ hz2]

/-- Last step: the accumulator likewise. -/
theorem scratch_C (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x4096 .f32) (harg8 : arg8.IsWhole) (hc0 : ¬cond0_0 i) (hc1 : cond0_1 i) (x0 : Vec F S256x256 .f32) (x1 : Vec F S4096x256 .f32) (x2 : Vec F S4096 .f32) (x3 : Vec F S256x1024 .f32) (xs0 : Vec F S256x4096 .f32) :
    sout0_C_0 c i arg2 harg2 arg3 harg3 arg4 harg4 arg5 harg5 arg6 harg6 arg7 harg7 arg8 harg8 hc0 hc1 x0 x1 x2 x3 xs0 = k0_pay9 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg8.read_unread,
    View.ld_unit_zero (S := S256x256) hz2, View.ld_unit_zero (S := S4096x256) hz2, View.ld_unit_zero (S := S256x4096) hz2,
    View.ld_unit_zero (S := S256x1024) hz2, View.ld_unit_zero (S := S4096) hz1, View.readCov_unit_zero (S := S256x4096) _ hz2]

/-- The new hidden state's block, from the final accumulator `acc`, the bias block and the old cell block. -/
abbrev hiddenBlk (acc : Vec F S256x4096 .f32) (x2 : Vec F S4096 .f32) (x3 : Vec F S256x1024 .f32) : Vec F S256x1024 .f32 :=
  k0_pay7 (k0_pay2 x2 acc) (k0_pay3 x2 acc) (k0_pay4 x2 acc) (k0_pay5 x2 acc) (Scalar.ofBits .f32 0xC3000000#32) (Scalar.ofBits .f32 0x42FE0000#32) x3

/-- The new cell state's block, likewise. -/
abbrev cellBlk (acc : Vec F S256x4096 .f32) (x2 : Vec F S4096 .f32) (x3 : Vec F S256x1024 .f32) : Vec F S256x1024 .f32 :=
  k0_pay6 (k0_pay3 x2 acc) (k0_pay4 x2 acc) (k0_pay5 x2 acc) (Scalar.ofBits .f32 0xC3000000#32) (Scalar.ofBits .f32 0x42FE0000#32) x3

/-- Last step: the hidden-state block the body stores. -/
theorem hidden_C (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x4096 .f32) (harg8 : arg8.IsWhole) (hc0 : ¬cond0_0 i) (hc1 : cond0_1 i) (x0 : Vec F S256x256 .f32) (x1 : Vec F S4096x256 .f32) (x2 : Vec F S4096 .f32) (x3 : Vec F S256x1024 .f32) (xs0 : Vec F S256x4096 .f32) :
    out0_C_4 c i arg2 harg2 arg3 harg3 arg4 harg4 arg5 harg5 arg6 harg6 arg7 harg7 arg8 harg8 hc0 hc1 x0 x1 x2 x3 xs0 = hiddenBlk (k0_pay9 x0 x1 xs0) x2 x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg8.read_unread,
    View.ld_unit_zero (S := S256x256) hz2, View.ld_unit_zero (S := S4096x256) hz2, View.ld_unit_zero (S := S256x4096) hz2,
    View.ld_unit_zero (S := S256x1024) hz2, View.ld_unit_zero (S := S4096) hz1, View.readCov_unit_zero (S := S256x4096) _ hz2]

/-- Last step: the cell-state block the body stores. -/
theorem cell_C (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x4096 .f32) (harg8 : arg8.IsWhole) (hc0 : ¬cond0_0 i) (hc1 : cond0_1 i) (x0 : Vec F S256x256 .f32) (x1 : Vec F S4096x256 .f32) (x2 : Vec F S4096 .f32) (x3 : Vec F S256x1024 .f32) (xs0 : Vec F S256x4096 .f32) :
    out0_C_5 c i arg2 harg2 arg3 harg3 arg4 harg4 arg5 harg5 arg6 harg6 arg7 harg7 arg8 harg8 hc0 hc1 x0 x1 x2 x3 xs0 = cellBlk (k0_pay9 x0 x1 xs0) x2 x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg8.read_unread,
    View.ld_unit_zero (S := S256x256) hz2, View.ld_unit_zero (S := S4096x256) hz2, View.ld_unit_zero (S := S256x4096) hz2,
    View.ld_unit_zero (S := S256x1024) hz2, View.ld_unit_zero (S := S4096) hz1, View.readCov_unit_zero (S := S256x4096) _ hz2]

end Cert.KernelIdeal.Pieces

end
-- ==== Proof.Quant.lean ====
/-
  Fixed-point fake quantization on the extended reals, and the two ways the programs spell it.

  A value x is quantized to the grid of step 1/32 with 8 bits: scale up by 32, round to the nearest integer (ties to
  even), clamp to [-128, 127], scale back by 1/32.  The kernel scales up by MULTIPLYING with 32; the reference by
  DIVIDING by the step 1/32.  On every extended real these agree: division by a non-zero real y is multiplication
  by the real 1/y, and 1/(1/32) = 32.  So the two spellings are one function `q`.
-/
import Idealize.ShloMosaic.PureOps.Ideal
import Idealize.ShloMosaic.PureOps.Ideal.Laws

noncomputable section

namespace LstmCell

open Idealize.ShloMosaic

/-- The float word of 32 denotes the real 32. -/
theorem word_32 : Ideal.ofBits .f32 0x42000000#32 = ((32 : ℝ) : EReal) := by
  simp [Ideal.ofBits, Ideal.ieee, -EReal.coe_mul]; norm_num

/-- The float word of the step denotes the real 1/32. -/
theorem word_step : Ideal.ofBits .f32 0x3D000000#32 = ((1 / 32 : ℝ) : EReal) := by
  simp [Ideal.ofBits, Ideal.ieee, -EReal.coe_mul]; norm_num

/-- Quantization as the kernel spells it: x * 32, rounded half-even, clamped, times the step. -/
def q (x : EReal) : EReal :=
  min (Ideal.ofBits .f32 0x42FE0000#32)
      (max (Ideal.ofBits .f32 0xC3000000#32) (Ideal.liftRound Ideal.roundHalfEven (x * Ideal.ofBits .f32 0x42000000#32)))
    * Ideal.ofBits .f32 0x3D000000#32

/-- Quantization as the reference spells it: x / step, rounded half-even, clamped, times the step. -/
def qDiv (x : EReal) : EReal :=
  min (Ideal.ofBits .f32 0x42FE0000#32)
      (max (Ideal.ofBits .f32 0xC3000000#32) (Ideal.liftRound Ideal.roundHalfEven (Ideal.div x (Ideal.ofBits .f32 0x3D000000#32))))
    * Ideal.ofBits .f32 0x3D000000#32

/-- Dividing by the step 1/32 is multiplying by 32, on every extended real. -/
theorem div_step (x : EReal) : Ideal.div x (Ideal.ofBits .f32 0x3D000000#32) = x * Ideal.ofBits .f32 0x42000000#32 := by
  rw [word_step, word_32, Ideal.div_coe (by norm_num : (1 / 32 : ℝ) ≠ 0)]
  congr 2
  norm_num

theorem qDiv_eq (x : EReal) : qDiv x = q x := by
  unfold qDiv q
  rw [div_step]

end LstmCell

end
-- ==== Proof.Spec.lean ====
/-
  One step of a quantized LSTM cell, as a function of its argument arrays, index by index, on the extended reals.

  Arguments: the joined input `xh` [2048, 2048] (input and previous hidden state side by side), the weight `w`
  [4096, 2048], the bias [4096] and the previous cell state `c` [2048, 1024].  Every operand is quantized by `q`
  (Quant.lean) before it is used.  The pre-activation of row b and gate column n is

      y b n = (sum over k < 2048 of q (xh b k) * q (w n k)) + q (bias n);

  the four gates of hidden unit j read the columns j, 1024 + j, 2048 + j and 3072 + j: input and forget gates through
  the logistic function, the candidate through tanh, the output gate through the logistic function, each quantized.
  The new cell state is q c * forget + input * candidate, and the new hidden state is q (tanh cell) * output.
-/
import proofs.«138739_j49331994362494_1_alg».proof.Proof.Quant
import Idealize.ShloMosaic.Lib.ValueIdx

noncomputable section

namespace LstmCell

open Idealize.ShloMosaic Idealize.ShloMosaic.ValueIdx

abbrev SJoined : Shape := ⟨2, ![2048, 2048]⟩
abbrev SWeight : Shape := ⟨2, ![4096, 2048]⟩
abbrev SBias : Shape := ⟨1, ![4096]⟩
abbrev SState : Shape := ⟨2, ![2048, 1024]⟩

/-- Column `1024 * g + j` of the pre-activation: gate `g` of hidden unit `j`. -/
def gateCol (g : Nat) (hg : g < 4) (j : Fin 1024) : Fin 4096 := ⟨1024 * g + j.val, by have := j.isLt; omega⟩

/-- The pre-activation at row `b`, column `n`. -/
def preact (xh : SJoined.Idx → EReal) (w : SWeight.Idx → EReal) (bias : SBias.Idx → EReal) (b : Fin 2048) (n : Fin 4096) : EReal :=
  (∑ k : Fin 2048, q (xh (ix2 b k)) * q (w (ix2 n k))) + q (bias (ix1 n))

/-- The cell's update from the four pre-activations `yi yf yg` (input, forget, candidate) and the old cell value. -/
def cellOf (yi yf yg cOld : EReal) : EReal :=
  q cOld * q (Ideal.logistic yf) + q (Ideal.logistic yi) * q (Ideal.tanh yg)

/-- The hidden state from the new cell value and the output gate's pre-activation. -/
def hiddenOf (cNew yo : EReal) : EReal :=
  q (Ideal.tanh cNew) * q (Ideal.logistic yo)

/-- The new cell state at row `b`, hidden unit `j`. -/
def cellNew (xh : SJoined.Idx → EReal) (w : SWeight.Idx → EReal) (bias : SBias.Idx → EReal) (c : SState.Idx → EReal) :
    SState.Idx → EReal := fun i =>
  cellOf (preact xh w bias (i 0) (gateCol 0 (by omega) (i 1))) (preact xh w bias (i 0) (gateCol 1 (by omega) (i 1)))
    (preact xh w bias (i 0) (gateCol 2 (by omega) (i 1))) (c i)

/-- The new hidden state at row `b`, hidden unit `j`. -/
def hiddenNew (xh : SJoined.Idx → EReal) (w : SWeight.Idx → EReal) (bias : SBias.Idx → EReal) (c : SState.Idx → EReal) :
    SState.Idx → EReal := fun i =>
  hiddenOf (cellNew xh w bias c i) (preact xh w bias (i 0) (gateCol 3 (by omega) (i 1)))

end LstmCell

end
-- ==== Proof.LibTransposedDot.lean ====
/-
  A matrix product against a transposed right operand, re-indexed.

  For a contraction of a [R, K] array with a [C, K] array (no batch axis; BOTH operands contract their axis 1, so the
  right operand is used as its transpose), the sum over the contraction's own index type of the operands' products
  at the result index (p, q) is the plain sum over k < K of l(p, k) * r(q, k).  Stated at abstract extents and for
  any such dimension record.

  The operand indices are read one axis at a time.  The left operand's axis 0 is its only non-contracting axis and
  there is no batch axis, so it reads the result index at position 0 + 0; its axis 1 is the only contracting axis and
  reads the contraction index's one coordinate.  The right operand's axis 0 is its only non-contracting axis and reads
  the result index at position 0 + 1 + 0, after the left operand's one non-contracting axis; its axis 1 is its only
  contracting axis.  The contraction index type has one axis of extent K, so it is in bijection with the numbers below
  K, and the sum is carried along that bijection.
-/
import Idealize.ShloMosaic.PureOps.Dims
import Idealize.ShloMosaic.Lib.ValueIdx

namespace TransposedDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0 reads the result index's coordinate 0. -/
theorem lhs_val_0 (d : DotDims ⟨2, ![R, K]⟩ ⟨2, ![C, K]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![C, K]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, its only non-contracting axis, reads the result index's coordinate 1. -/
theorem rhs_val_0 (d : DotDims ⟨2, ![R, K]⟩ ⟨2, ![C, K]⟩ ⟨2, ![R, C]⟩)
    (hrb : d.rhsBatch = []) (hrn : d.rhsNonContracting = [0])
    (hlb : d.lhsBatch = []) (hln : d.lhsNonContracting = [0])
    (j : (⟨2, ![R, C]⟩ : Shape).Idx) (k : d.contr.Idx) :
    (d.rhsIdx j k (0 : Fin 2)).val = (j (1 : Fin 2)).val := by
  have hb : ¬ (0 : Fin 2) ∈ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The right operand's axis 1, the only contracting axis, reads the contraction index's one coordinate. -/
theorem rhs_val_1 (d : DotDims ⟨2, ![R, K]⟩ ⟨2, ![C, K]⟩ ⟨2, ![R, C]⟩)
    (hrc : d.rhsContracting = [1]) (hr : d.contr.rank = 1)
    (j : (⟨2, ![R, C]⟩ : Shape).Idx) (k : d.contr.Idx) :
    (d.rhsIdx j k (1 : Fin 2)).val = (k ⟨0, by omega⟩).val :=
  d.rhsIdx_val_of_single hrc j k

/-- The left operand's index at result index `(p, q)` and contraction position `k` is `(p, k)`. -/
theorem lhsIdx_eq (d : DotDims ⟨2, ![R, K]⟩ ⟨2, ![C, K]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(q, k)`. -/
theorem rhsIdx_eq (d : DotDims ⟨2, ![R, K]⟩ ⟨2, ![C, K]⟩ ⟨2, ![R, C]⟩)
    (hrb : d.rhsBatch = []) (hrn : d.rhsNonContracting = [0]) (hrc : d.rhsContracting = [1])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 q k := by
  funext a
  apply Fin.ext
  match a with
  | ⟨0, _⟩ => exact rhs_val_0 d hrb hrn hlb hln (ix2 p q) _
  | ⟨1, _⟩ => exact (rhs_val_1 d hrc hr (ix2 p q) _).trans (contrEquiv1_symm_val d K hr hs k)

/-- The contraction sum at `(p, q)` is `∑ k < K, l (p, k) * r (q, k)`. -/
theorem sum_eq {M : Type} [AddCommMonoid M] [Mul M] (d : DotDims ⟨2, ![R, K]⟩ ⟨2, ![C, K]⟩ ⟨2, ![R, C]⟩)
    (hlb : d.lhsBatch = []) (hln : d.lhsNonContracting = [0]) (hlc : d.lhsContracting = [1])
    (hrb : d.rhsBatch = []) (hrn : d.rhsNonContracting = [0]) (hrc : d.rhsContracting = [1])
    (l : (⟨2, ![R, K]⟩ : Shape).Idx → M) (r : (⟨2, ![C, K]⟩ : Shape).Idx → M) (p : Fin R) (q : Fin C) :
    ∑ k : d.contr.Idx, l (d.lhsIdx (ix2 p q) k) * r (d.rhsIdx (ix2 p q) k) = ∑ k : Fin K, l (ix2 p k) * r (ix2 q k) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end TransposedDot
-- ==== Proof.PayIdx.lean ====
/-
  The body's pure terms read at an index, on the extended reals.

  The accumulation step adds, at row r and column n of the accumulator, the sum over the 256 columns kk of the step's
  blocks of q (x r kk) * q (w n kk): the matrix unit contracts the second axis of both operands.  The pre-activation adds
  the quantized bias of column n.  The four gates of hidden unit j read columns j, 1024 + j, 2048 + j, 3072 + j of the
  pre-activation, and the two results are the cell's update (Spec.lean) of those four numbers and the old cell value.
-/
import proofs.«138739_j49331994362494_1_alg».proof.Proof.Pieces
import proofs.«138739_j49331994362494_1_alg».proof.Proof.Spec
import proofs.«138739_j49331994362494_1_alg».proof.Proof.LibTransposedDot
import Idealize.ShloMosaic.Lib.Pipeline.Value
import Idealize.ShloMosaic.Lib.ValueIdx
import Idealize.ShloMosaic.PureOps.Ideal.Laws

noncomputable section

namespace Cert.KernelIdeal.PayIdx

open Cert.KernelIdeal Cert.KernelIdeal.Gen Idealize.ShloMosaic Idealize.ShloMosaic.TcCoe Idealize.ShloMosaic.ValueIdx

/-- The quantizer's vector spelling, read at an index, is the scalar quantizer of the entry. -/
theorem quant_apply {s : Shape} (x : FVec Ideal s .f32) (i : s.Idx) :
    (mulf (minimumf (broadcast s (Scalar.ofBits .f32 0x42FE0000#32)) (maximumf (broadcast s (Scalar.ofBits .f32 0xC3000000#32))
      (roundeven (mulf x (broadcast s (Scalar.ofBits .f32 0x42000000#32)))))) (broadcast s (Scalar.ofBits .f32 0x3D000000#32))) i
      = LstmCell.q (x i) := rfl

/-- The reset stores zeros. -/
theorem zero_apply (i : S256x4096.Idx) : k0_pay8 (F := Ideal) i = 0 := by
  unfold k0_pay8
  rw [shapeCast_self]
  show Ideal.ofBits .f32 0x00000000#32 = 0
  exact Ideal.ofBits_zero_f32

/-- One accumulation step at (r, n): what was there plus the block product's entry. -/
theorem step_apply (x0 : Vec Ideal S256x256 .f32) (x1 : Vec Ideal S4096x256 .f32) (acc : Vec Ideal S256x4096 .f32)
    (r : Fin 256) (n : Fin 4096) :
    k0_pay9 x0 x1 acc (ix2 r n) = acc (ix2 r n) + ∑ kk : Fin 256, LstmCell.q (x0 (ix2 r kk)) * LstmCell.q (x1 (ix2 n kk)) := by
  unfold k0_pay9
  simp only [shapeCast_self]
  rw [addf_apply]
  refine congrArg (acc (ix2 r n) + ·) ?_
  refine (Ideal.matmul_constant_zero_apply dot_S256x256_S4096x256_S256x4096_1_1_0_0_n_n none _ _ (ix2 r n)).trans ?_
  refine (TransposedDot.sum_eq (M := EReal) (R := 256) (K := 256) (C := 4096) dot_S256x256_S4096x256_S256x4096_1_1_0_0_n_n rfl rfl rfl rfl rfl rfl _ _ r n).trans ?_
  rfl

/-- The pre-activation at (r, n): the accumulator plus the quantized bias of column n. -/
theorem preact_apply (x2 : Vec Ideal S4096 .f32) (acc : Vec Ideal S256x4096 .f32) (r : Fin 256) (n : Fin 4096) :
    k0_pay1 x2 acc (ix2 r n) = acc (ix2 r n) + LstmCell.q (x2 (ix1 n)) := by
  unfold k0_pay1
  rw [addf_apply]
  congr 1
  rw [broadcastTo_apply _ _ (ix2 r n) (ix2 (0 : Fin 1) n) (fun a => by
    match a with
    | ⟨0, _⟩ => rfl
    | ⟨1, _⟩ => rfl)]
  rw [shapeCast_addUnit_apply ![4096]]
  show LstmCell.q (x2 _) = LstmCell.q (x2 (ix1 n))
  congr 2
  funext a
  match a with
  | ⟨0, _⟩ => rfl

/-- Gate `g`'s pre-activation of row r, hidden unit j. -/
def gatePre (x2 : Vec Ideal S4096 .f32) (acc : Vec Ideal S256x4096 .f32) (r : Fin 256) (j : Fin 1024) (g : Nat) (hg : g < 4) : EReal :=
  acc (ix2 r (LstmCell.gateCol g hg j)) + LstmCell.q (x2 (ix1 (LstmCell.gateCol g hg j)))

/-- A gate's 1024-column slice of the pre-activation, read at (r, j). -/
theorem gate_slice (x2 : Vec Ideal S4096 .f32) (acc : Vec Ideal S256x4096 .f32) (off1 : Nat)
    (h : S256x4096.Slices ![0, off1] S256x1024) (g : Nat) (hg : g < 4) (hoff : off1 = 1024 * g) (r : Fin 256) (j : Fin 1024) :
    extractStridedSlice S256x1024 ![0, off1] (k0_pay1 x2 acc) h (ix2 r j) = gatePre x2 acc r j g hg :=
  (extractStridedSlice_apply _ (k0_pay1 x2 acc) h (ix2 r j) (ix2 r (LstmCell.gateCol g hg j)) (fun a => by
    match a with
    | ⟨0, _⟩ => show r.val = 0 + r.val; omega
    | ⟨1, _⟩ => show 1024 * g + j.val = off1 + j.val; omega)).trans (preact_apply x2 acc r _)

/-- The cell-state block at (r, j). -/
theorem cellBlk_apply (acc : Vec Ideal S256x4096 .f32) (x2 : Vec Ideal S4096 .f32) (x3 : Vec Ideal S256x1024 .f32)
    (r : Fin 256) (j : Fin 1024) :
    Pieces.cellBlk acc x2 x3 (ix2 r j) = LstmCell.cellOf (gatePre x2 acc r j 0 (by omega)) (gatePre x2 acc r j 1 (by omega))
      (gatePre x2 acc r j 2 (by omega)) (x3 (ix2 r j)) := by
  unfold Pieces.cellBlk k0_pay6 k0_pay3 k0_pay4 k0_pay5
  show LstmCell.cellOf (extractStridedSlice S256x1024 ![0, 0] (k0_pay1 x2 acc) _ (ix2 r j))
      (extractStridedSlice S256x1024 ![0, 1024] (k0_pay1 x2 acc) _ (ix2 r j))
      (extractStridedSlice S256x1024 ![0, 2048] (k0_pay1 x2 acc) _ (ix2 r j)) (x3 (ix2 r j)) = _
  rw [gate_slice x2 acc 0 _ 0 (by omega) rfl, gate_slice x2 acc 1024 _ 1 (by omega) rfl, gate_slice x2 acc 2048 _ 2 (by omega) rfl]

/-- The hidden-state block at (r, j). -/
theorem hiddenBlk_apply (acc : Vec Ideal S256x4096 .f32) (x2 : Vec Ideal S4096 .f32) (x3 : Vec Ideal S256x1024 .f32)
    (r : Fin 256) (j : Fin 1024) :
    Pieces.hiddenBlk acc x2 x3 (ix2 r j) = LstmCell.hiddenOf (LstmCell.cellOf (gatePre x2 acc r j 0 (by omega)) (gatePre x2 acc r j 1 (by omega))
      (gatePre x2 acc r j 2 (by omega)) (x3 (ix2 r j))) (gatePre x2 acc r j 3 (by omega)) := by
  unfold Pieces.hiddenBlk k0_pay7 k0_pay6 k0_pay2 k0_pay3 k0_pay4 k0_pay5
  show LstmCell.hiddenOf (LstmCell.cellOf (extractStridedSlice S256x1024 ![0, 0] (k0_pay1 x2 acc) _ (ix2 r j))
      (extractStridedSlice S256x1024 ![0, 1024] (k0_pay1 x2 acc) _ (ix2 r j))
      (extractStridedSlice S256x1024 ![0, 2048] (k0_pay1 x2 acc) _ (ix2 r j)) (x3 (ix2 r j)))
      (extractStridedSlice S256x1024 ![0, 3072] (k0_pay1 x2 acc) _ (ix2 r j)) = _
  rw [gate_slice x2 acc 0 _ 0 (by omega) rfl, gate_slice x2 acc 1024 _ 1 (by omega) rfl, gate_slice x2 acc 2048 _ 2 (by omega) rfl,
    gate_slice x2 acc 3072 _ 3 (by omega) rfl]

end Cert.KernelIdeal.PayIdx

end
-- ==== Proof.LibBlockSum.lean ====
/-
  A sum over L * B consecutive numbers, cut into B blocks of L.

  The sum of F over the numbers below L * B is the sum, over the blocks s below B, of the sums of F over the block's
  numbers L * s + kk, kk below L: the range is the disjoint union of the blocks, taken in order.  Stated over a
  commutative additive monoid and for sums indexed by ranges of naturals and by finite ordinals alike.
-/
import Mathlib.Algebra.BigOperators.Fin

namespace BlockSum

open Finset

variable {M : Type*} [AddCommMonoid M]

/-- Over ranges of naturals, by induction on the number of blocks: the last block is split off on both sides. -/
theorem sum_range_blocks (F : ℕ → M) (L : ℕ) :
    ∀ B : ℕ, ∑ s ∈ range B, ∑ kk ∈ range L, F (L * s + kk) = ∑ k ∈ range (L * B), F k
  | 0 => by simp
  | B + 1 => by
    rw [sum_range_succ, sum_range_blocks F L B, Nat.mul_succ, sum_range_add]

/-- The same with the inner and the whole sum over finite ordinals. -/
theorem sum_fin_blocks (F : ℕ → M) (L B : ℕ) :
    ∑ s ∈ range B, ∑ kk : Fin L, F (L * s + kk.val) = ∑ k : Fin (L * B), F k.val := by
  rw [← Finset.sum_range (fun k => F k), ← sum_range_blocks F L B]
  refine Finset.sum_congr rfl fun s _ => ?_
  exact (Finset.sum_range (fun kk => F (L * s + kk))).symm

end BlockSum
-- ==== Proof.KValue.lean ====
/-
  The kernel's two result arrays as functions of its argument arrays.

  The grid has 64 points: point t works on row block t / 8 (rows 256 (t / 8) … + 255) at reduction step t % 8 (columns
  256 (t % 8) … + 255 of the joined input and of the weight).  The accumulator is reset at step 0 and carried through the
  eight steps; after step 7 it holds, at (r, col), zero plus the eight block products' entries, which re-associate to the
  one sum over all 2048 contraction positions of q (xh (256 i + r, k)) * q (w (col, k)).  The last step computes both
  results from that accumulator, the bias and the old cell state's block, and writes its blocks back; the blocks written
  back at the eight last steps tile both result arrays.
-/
import proofs.«138739_j49331994362494_1_alg».proof.Proof.Gen.KernelIdeal.Value
import proofs.«138739_j49331994362494_1_alg».proof.Proof.PayIdx
import Idealize.ShloMosaic.Lib.Pipeline.Value
import Idealize.ShloMosaic.Lib.StableHlo.Run
import Idealize.ShloMosaic.Lib.ValueIdx
import proofs.«138739_j49331994362494_1_alg».proof.Proof.LibBlockSum

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The joined input as the region finds it: the input and the previous hidden state side by side. -/
abbrev joined (c : Dev nD) : S2048x2048.Idx → EReal :=
  concatenate S2048x2048 1 [⟨S2048x1024, m ((c : Thread nD τ).loc main_arg0)⟩, ⟨S2048x1024, m ((c : Thread nD τ).loc main_arg1)⟩]
    concatenates_S2048x1024_S2048x1024_S2048x2048_d1

/-- The four input blocks at a grid point, at their literal types. -/
abbrev xblk (c : Dev nD) (t : Fin cfg0.N) : Vec Ideal S256x256 .f32 := iblk m c 0 t
abbrev wblk (c : Dev nD) (t : Fin cfg0.N) : Vec Ideal S4096x256 .f32 := iblk m c 1 t
abbrev bblk (c : Dev nD) (t : Fin cfg0.N) : Vec Ideal S4096 .f32 := iblk m c 2 t
abbrev cblk (c : Dev nD) (t : Fin cfg0.N) : Vec Ideal S256x1024 .f32 := iblk m c 3 t

/-- The host's one operation before the region writes the joined input. -/
theorem V_joined (c : Dev nD) : (V m c main_v0 : S2048x2048.Idx → EReal) = joined m c := by
  dsimp only [Gen.V, Gen.hostOps0]
  after_results

/-- The printed index maps over the grid: point t is row block t / 8 at reduction step t % 8. -/
theorem idx_facts : ∀ t : Fin cfg0.N, win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 1) = 0
    ∧ win0_3.index t (0 : Fin 2) = t.val / 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The joined input's block at point t holds rows 256 (t / 8) + ·, columns 256 (t % 8) + ·. -/
theorem xblk_apply (c : Dev nD) (t : Fin cfg0.N) (r kk : Fin 256) (i : S2048x2048.Idx)
    (h0 : (i 0).val = 256 * (t.val / 8) + r.val) (h1 : (i 1).val = 256 * (t.val % 8) + kk.val) :
    xblk m c t (ix2 r kk) = joined m c i := by
  obtain ⟨e0, e1, -⟩ := idx_facts t
  rw [← V_joined]
  unfold xblk iblk
  rw [View.read_apply]
  show V m c main_v0 _ = V m c main_v0 i
  congr 1
  funext a
  apply Fin.ext
  match a with
  | ⟨0, _⟩ => show win0_0.index t (0 : Fin 2) * 256 + 1 * r.val = (i 0).val; omega
  | ⟨1, _⟩ => show win0_0.index t (1 : Fin 2) * 256 + 1 * kk.val = (i 1).val; omega

/-- The weight's block at point t holds all rows, columns 256 (t % 8) + ·. -/
theorem wblk_apply (c : Dev nD) (t : Fin cfg0.N) (n : Fin 4096) (kk : Fin 256) (i : S4096x2048.Idx)
    (h0 : (i 0).val = n.val) (h1 : (i 1).val = 256 * (t.val % 8) + kk.val) :
    wblk m c t (ix2 n kk) = m ((c : Thread nD τ).loc main_arg3) i := by
  obtain ⟨-, -, e0, e1, -⟩ := idx_facts t
  rw [← V_main_arg3 m c]
  unfold wblk iblk
  rw [View.read_apply]
  show V m c main_arg3 _ = V m c main_arg3 i
  congr 1
  funext a
  apply Fin.ext
  match a with
  | ⟨0, _⟩ => show win0_1.index t (0 : Fin 2) * 4096 + 1 * n.val = (i 0).val; omega
  | ⟨1, _⟩ => show win0_1.index t (1 : Fin 2) * 256 + 1 * kk.val = (i 1).val; omega

/-- The bias block is the whole bias. -/
theorem bblk_apply (c : Dev nD) (t : Fin cfg0.N) (n : Fin 4096) :
    bblk m c t (ix1 n) = m ((c : Thread nD τ).loc main_arg4) (ix1 n) := by
  obtain ⟨-, -, -, -, e0, -⟩ := idx_facts t
  rw [← V_main_arg4 m c]
  unfold bblk iblk
  rw [View.read_apply]
  show V m c main_arg4 _ = V m c main_arg4 (ix1 n)
  congr 1
  funext a
  apply Fin.ext
  match a with
  | ⟨0, _⟩ => show win0_2.index t (0 : Fin 1) * 4096 + 1 * n.val = n.val; omega

/-- The old cell state's block at point t holds rows 256 (t / 8) + ·, all columns. -/
theorem cblk_apply (c : Dev nD) (t : Fin cfg0.N) (r : Fin 256) (j : Fin 1024) (i : S2048x1024.Idx)
    (h0 : (i 0).val = 256 * (t.val / 8) + r.val) (h1 : (i 1).val = j.val) :
    cblk m c t (ix2 r j) = m ((c : Thread nD τ).loc main_arg2) i := by
  obtain ⟨-, -, -, -, -, e0, e1, -⟩ := idx_facts t
  rw [← V_main_arg2 m c]
  unfold cblk iblk
  rw [View.read_apply]
  show V m c main_arg2 _ = V m c main_arg2 i
  congr 1
  funext a
  apply Fin.ext
  match a with
  | ⟨0, _⟩ => show win0_3.index t (0 : Fin 2) * 256 + 1 * r.val = (i 0).val; omega
  | ⟨1, _⟩ => show win0_3.index t (1 : Fin 2) * 1024 + 1 * j.val = (i 1).val; omega

/-! ## The accumulator, step by step -/

/-- At the first step of a row block the accumulator ends at zeros plus the step's block product; -/
theorem scAt_first (c : Dev nD) (n : ℕ) (hb : n < cfg0.N) (h0 : n % 8 = 0) (acc : Vec Ideal S256x4096 .f32) :
    Value.scAt0_0 m c n hb acc = k0_pay9 (xblk m c (⟨n, hb⟩ : Fin cfg0.N)) (wblk m c (⟨n, hb⟩ : Fin cfg0.N)) (k0_pay8 (F := Ideal)) := by
  have h1 : ¬ n % 8 = 7 := by omega
  unfold Value.scAt0_0
  rw [dif_pos h0, dif_neg h1]
  exact Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (xblk m c (⟨n, hb⟩ : Fin cfg0.N)) (wblk m c (⟨n, hb⟩ : Fin cfg0.N)) (bblk m c (⟨n, hb⟩ : Fin cfg0.N)) (cblk m c (⟨n, hb⟩ : Fin cfg0.N))

/-- at every later step at what the step before left plus the step's block product. -/
theorem scAt_later (c : Dev nD) (n : ℕ) (hb : n < cfg0.N) (h0 : ¬ n % 8 = 0) (acc : Vec Ideal S256x4096 .f32) :
    Value.scAt0_0 m c n hb acc = k0_pay9 (xblk m c (⟨n, hb⟩ : Fin cfg0.N)) (wblk m c (⟨n, hb⟩ : Fin cfg0.N)) acc := by
  unfold Value.scAt0_0
  rw [dif_neg h0]
  by_cases h1 : n % 8 = 7
  · rw [dif_pos h1]
    exact Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (xblk m c (⟨n, hb⟩ : Fin cfg0.N)) (wblk m c (⟨n, hb⟩ : Fin cfg0.N)) (bblk m c (⟨n, hb⟩ : Fin cfg0.N)) (cblk m c (⟨n, hb⟩ : Fin cfg0.N)) acc
  · rw [dif_neg h1]
    exact Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (xblk m c (⟨n, hb⟩ : Fin cfg0.N)) (wblk m c (⟨n, hb⟩ : Fin cfg0.N)) (bblk m c (⟨n, hb⟩ : Fin cfg0.N)) (cblk m c (⟨n, hb⟩ : Fin cfg0.N)) acc

/-- Step n's addend to the accumulator at (r, col): the block product's entry (zero past the grid, never used). -/
def addend (c : Dev nD) (n : ℕ) : S256x4096.Idx → EReal := fun idx =>
  if h : n < cfg0.N then ∑ kk : Fin 256, LstmCell.q (xblk m c ⟨n, h⟩ (ix2 (idx 0) kk)) * LstmCell.q (wblk m c ⟨n, h⟩ (ix2 (idx 1) kk)) else 0

/-- The accumulator after point t: zero plus the addends of the row block's steps so far. -/
theorem acc_at (c : Dev nD) (t : Fin cfg0.N) (idx : S256x4096.Idx) :
    (outsAt0 m c t.val t.isLt).2.2 idx = 0 + ∑ s ∈ Finset.range (t.val % 8 + 1), addend m c (8 * (t.val / 8) + s) idx := by
  rw [Value.soutsAt0_0_eq]
  refine Pipeline.accAt_add_apply _ _ (fun _ => 0) (addend m c) (8 * (t.val / 8)) 7 ?_ ?_ (t.val % 8) (by omega) _ idx
  · intro h idx
    obtain ⟨r, n, rfl⟩ : ∃ (r : Fin 256) (n : Fin 4096), idx = ix2 r n := ⟨idx 0, idx 1, eq_ix2 idx⟩
    show Value.scAt0_0 m c _ h _ (ix2 r n) = 0 + addend m c _ (ix2 r n)
    rw [scAt_first m c _ h (by omega), PayIdx.step_apply, PayIdx.zero_apply]
    unfold addend
    rw [dif_pos h]
  · intro n h acc idx hlt hle
    obtain ⟨r, col, rfl⟩ : ∃ (r : Fin 256) (col : Fin 4096), idx = ix2 r col := ⟨idx 0, idx 1, eq_ix2 idx⟩
    rw [scAt_later m c n h (by omega), PayIdx.step_apply]
    unfold addend
    rw [dif_pos h]

/-! ## At a row block's last step the accumulator holds the whole contraction -/

/-- The contraction's k-th term at row B and column col, for a natural k (zero past the extent, never used). -/
def termAt (c : Dev nD) (B : Fin 2048) (col : Fin 4096) (k : ℕ) : EReal :=
  if hk : k < 2048 then LstmCell.q (joined m c (ix2 B ⟨k, hk⟩)) * LstmCell.q (m ((c : Thread nD τ).loc main_arg3) (ix2 col ⟨k, hk⟩)) else 0

/-- Step s of row block i adds the terms 256 s … 256 s + 255 of the contraction. -/
theorem addend_eq (c : Dev nD) (i s : ℕ) (hi : i < 8) (hs : s < 8) (r : Fin 256) (col : Fin 4096) (B : Fin 2048)
    (hB : B.val = 256 * i + r.val) :
    addend m c (8 * i + s) (ix2 r col) = ∑ kk : Fin 256, termAt m c B col (256 * s + kk.val) := by
  have hN : 8 * i + s < cfg0.N := by rw [show cfg0.N = 64 from N_0]; omega
  unfold addend
  rw [dif_pos hN]
  refine Finset.sum_congr rfl fun kk _ => ?_
  have hk : 256 * s + kk.val < 2048 := by have := kk.isLt; omega
  unfold termAt
  rw [dif_pos hk]
  rw [xblk_apply m c ⟨8 * i + s, hN⟩ r kk (ix2 B ⟨256 * s + kk.val, hk⟩) (by show B.val = 256 * ((8 * i + s) / 8) + r.val; omega)
      (by show 256 * s + kk.val = 256 * ((8 * i + s) % 8) + kk.val; omega),
    wblk_apply m c ⟨8 * i + s, hN⟩ col kk (ix2 col ⟨256 * s + kk.val, hk⟩) rfl
      (by show 256 * s + kk.val = 256 * ((8 * i + s) % 8) + kk.val; omega)]

/-- The accumulator after a row block's last step, at (r, col): the contraction over all 2048 positions. -/
theorem acc_last (c : Dev nD) (t : Fin cfg0.N) (h7 : t.val % 8 = 7) (r : Fin 256) (col : Fin 4096) (B : Fin 2048)
    (hB : B.val = 256 * (t.val / 8) + r.val) :
    (outsAt0 m c t.val t.isLt).2.2 (ix2 r col)
      = ∑ k : Fin 2048, LstmCell.q (joined m c (ix2 B k)) * LstmCell.q (m ((c : Thread nD τ).loc main_arg3) (ix2 col k)) := by
  have hN : t.val < 64 := lt_of_lt_of_eq t.isLt (show cfg0.N = 64 from N_0)
  rw [acc_at, zero_add, h7]
  show ∑ s ∈ Finset.range 8, addend m c (8 * (t.val / 8) + s) (ix2 r col) = _
  rw [Finset.sum_congr rfl fun s hs => addend_eq m c (t.val / 8) s (by omega) (Finset.mem_range.mp hs) r col B hB,
    BlockSum.sum_fin_blocks (termAt m c B col) 256 8]
  show ∑ k : Fin 2048, termAt m c B col k.val = _
  refine Finset.sum_congr rfl fun k _ => ?_
  unfold termAt
  rw [dif_pos k.isLt]

/-- A gate's pre-activation at a row block's last step is the specification's, at the block's row of the arrays. -/
theorem gatePre_last (c : Dev nD) (t : Fin cfg0.N) (h7 : t.val % 8 = 7) (r : Fin 256) (j : Fin 1024) (g : ℕ) (hg : g < 4)
    (B : Fin 2048) (hB : B.val = 256 * (t.val / 8) + r.val) :
    PayIdx.gatePre (bblk m c t) ((outsAt0 m c t.val t.isLt).2.2) r j g hg
      = LstmCell.preact (joined m c) (m ((c : Thread nD τ).loc main_arg3)) (m ((c : Thread nD τ).loc main_arg4)) B (LstmCell.gateCol g hg j) := by
  unfold PayIdx.gatePre LstmCell.preact
  rw [acc_last m c t h7 r _ B hB, bblk_apply]

/-! ## What the last step writes back, and the two result arrays -/

/-- At a row block's last step both output buffers hold the cell's blocks of the accumulator just stored. -/
theorem outs_last (c : Dev nD) (t : Fin cfg0.N) (h0 : ¬ t.val % 8 = 0) (h7 : t.val % 8 = 7) :
    (outsAt0 m c t.val t.isLt).1 = Pieces.hiddenBlk ((outsAt0 m c t.val t.isLt).2.2) (bblk m c t) (cblk m c t)
    ∧ (outsAt0 m c t.val t.isLt).2.1 = Pieces.cellBlk ((outsAt0 m c t.val t.isLt).2.2) (bblk m c t) (cblk m c t) := by
  rw [outsAt0_C m c t h0 h7]
  dsimp only
  refine ⟨?_, ?_⟩
  · refine (Pieces.hidden_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (xblk m c t) (wblk m c t) (bblk m c t) (cblk m c t) _).trans ?_
    exact congrArg (fun a => Pieces.hiddenBlk a (bblk m c t) (cblk m c t))
      (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (xblk m c t) (wblk m c t) (bblk m c t) (cblk m c t) _).symm
  · refine (Pieces.cell_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (xblk m c t) (wblk m c t) (bblk m c t) (cblk m c t) _).trans ?_
    exact congrArg (fun a => Pieces.cellBlk a (bblk m c t) (cblk m c t))
      (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (xblk m c t) (wblk m c t) (bblk m c t) (cblk m c t) _).symm

/-- The new hidden state and the new cell state, as functions of the argument arrays. -/
abbrev hiddenArr (c : Dev nD) : S2048x1024.Idx → EReal :=
  LstmCell.hiddenNew (joined m c) (m ((c : Thread nD τ).loc main_arg3)) (m ((c : Thread nD τ).loc main_arg4)) (m ((c : Thread nD τ).loc main_arg2))
abbrev cellArr (c : Dev nD) : S2048x1024.Idx → EReal :=
  LstmCell.cellNew (joined m c) (m ((c : Thread nD τ).loc main_arg3)) (m ((c : Thread nD τ).loc main_arg4)) (m ((c : Thread nD τ).loc main_arg2))

/-- The cell block the last step stores, at (r, j), is the specification's cell at row 256 (t / 8) + r. -/
theorem cell_last (c : Dev nD) (t : Fin cfg0.N) (h7 : t.val % 8 = 7) (r : Fin 256) (j : Fin 1024) (B : Fin 2048)
    (hB : B.val = 256 * (t.val / 8) + r.val) :
    Pieces.cellBlk ((outsAt0 m c t.val t.isLt).2.2) (bblk m c t) (cblk m c t) (ix2 r j) = cellArr m c (ix2 B j) := by
  rw [PayIdx.cellBlk_apply, gatePre_last m c t h7 r j 0 _ B hB, gatePre_last m c t h7 r j 1 _ B hB, gatePre_last m c t h7 r j 2 _ B hB,
    cblk_apply m c t r j (ix2 B j) hB rfl]
  rfl

theorem hidden_last (c : Dev nD) (t : Fin cfg0.N) (h7 : t.val % 8 = 7) (r : Fin 256) (j : Fin 1024) (B : Fin 2048)
    (hB : B.val = 256 * (t.val / 8) + r.val) :
    Pieces.hiddenBlk ((outsAt0 m c t.val t.isLt).2.2) (bblk m c t) (cblk m c t) (ix2 r j) = hiddenArr m c (ix2 B j) := by
  rw [PayIdx.hiddenBlk_apply, gatePre_last m c t h7 r j 0 _ B hB, gatePre_last m c t h7 r j 1 _ B hB, gatePre_last m c t h7 r j 2 _ B hB,
    gatePre_last m c t h7 r j 3 _ B hB, cblk_apply m c t r j (ix2 B j) hB rfl]
  rfl

/-- A value block whose entry (r, j) is `G` at row 256 (t / 8) + r, column j, is block t of `G`: output window 4. -/
theorem read_blk4 (t : Fin cfg0.N) (v : Vec Ideal S256x1024 .f32) (G : S2048x1024.Idx → EReal)
    (h : ∀ (r : Fin 256) (j : Fin 1024) (B : Fin 2048), B.val = 256 * (t.val / 8) + r.val → v (ix2 r j) = G (ix2 B j)) :
    (cfg0.win 4).cut (grid0.coords t) v = ((cfg0.win 4).blk t).view.read (Elt Ideal) G := by
  obtain ⟨-, -, -, -, -, -, -, e0, e1, -⟩ := idx_facts t
  have hN : t.val < 64 := lt_of_lt_of_eq t.isLt (show cfg0.N = 64 from N_0)
  funext y
  show v y = G (((cfg0.win 4).blk t).view.emb y)
  have hy0 : (y 0).val < 256 := (y 0).isLt
  have hy1 : (y 1).val < 1024 := (y 1).isLt
  have e : ((cfg0.win 4).blk t).view.emb y
      = (ix2 (⟨256 * (t.val / 8) + (y 0).val, by omega⟩ : Fin 2048) (⟨(y 1).val, hy1⟩ : Fin 1024) : S2048x1024.Idx) := by
    funext a
    apply Fin.ext
    match a with
    | ⟨0, _⟩ => show win0_4.index t (0 : Fin 2) * 256 + 1 * (y 0).val = 256 * (t.val / 8) + (y 0).val; omega
    | ⟨1, _⟩ => show win0_4.index t (1 : Fin 2) * 1024 + 1 * (y 1).val = (y 1).val; omega
  have ey : (y : S256x1024.Idx) = ix2 (⟨(y 0).val, hy0⟩ : Fin 256) (⟨(y 1).val, hy1⟩ : Fin 1024) := by
    funext a
    match a with
    | ⟨0, _⟩ => rfl
    | ⟨1, _⟩ => rfl
  exact ((congrArg v ey).trans (h ⟨(y 0).val, hy0⟩ ⟨(y 1).val, hy1⟩ _ rfl)).trans (congrArg G e.symm)

/-- The same for output window 5. -/
theorem read_blk5 (t : Fin cfg0.N) (v : Vec Ideal S256x1024 .f32) (G : S2048x1024.Idx → EReal)
    (h : ∀ (r : Fin 256) (j : Fin 1024) (B : Fin 2048), B.val = 256 * (t.val / 8) + r.val → v (ix2 r j) = G (ix2 B j)) :
    (cfg0.win 5).cut (grid0.coords t) v = ((cfg0.win 5).blk t).view.read (Elt Ideal) G := by
  obtain ⟨-, -, -, -, -, -, -, -, -, e0, e1⟩ := idx_facts t
  have hN : t.val < 64 := lt_of_lt_of_eq t.isLt (show cfg0.N = 64 from N_0)
  funext y
  show v y = G (((cfg0.win 5).blk t).view.emb y)
  have hy0 : (y 0).val < 256 := (y 0).isLt
  have hy1 : (y 1).val < 1024 := (y 1).isLt
  have e : ((cfg0.win 5).blk t).view.emb y
      = (ix2 (⟨256 * (t.val / 8) + (y 0).val, by omega⟩ : Fin 2048) (⟨(y 1).val, hy1⟩ : Fin 1024) : S2048x1024.Idx) := by
    funext a
    apply Fin.ext
    match a with
    | ⟨0, _⟩ => show win0_5.index t (0 : Fin 2) * 256 + 1 * (y 0).val = 256 * (t.val / 8) + (y 0).val; omega
    | ⟨1, _⟩ => show win0_5.index t (1 : Fin 2) * 1024 + 1 * (y 1).val = (y 1).val; omega
  have ey : (y : S256x1024.Idx) = ix2 (⟨(y 0).val, hy0⟩ : Fin 256) (⟨(y 1).val, hy1⟩ : Fin 1024) := by
    funext a
    match a with
    | ⟨0, _⟩ => rfl
    | ⟨1, _⟩ => rfl
  exact ((congrArg v ey).trans (h ⟨(y 0).val, hy0⟩ ⟨(y 1).val, hy1⟩ _ rfl)).trans (congrArg G e.symm)

/-- What a flushing point writes back to the hidden-state array is its block of the specification's hidden state; -/
theorem flushed4_eq (c : Dev nD) (t : Fin cfg0.N) (hf : (cfg0.win 4).flush t = true) :
    (dats m 0 c).flushed 4 t = ((cfg0.win 4).blk t).view.read (Elt Ideal) (hiddenArr m c) := by
  have h7 : t.val % 8 = 7 := (flush0_4 t).mp hf
  have h0 : ¬ t.val % 8 = 0 := by omega
  rw [Value.flushed4, (outs_last m c t h0 h7).1]
  exact read_blk4 t _ _ fun r j B hB => hidden_last m c t h7 r j B hB

/-- and to the cell-state array its block of the specification's cell state. -/
theorem flushed5_eq (c : Dev nD) (t : Fin cfg0.N) (hf : (cfg0.win 5).flush t = true) :
    (dats m 0 c).flushed 5 t = ((cfg0.win 5).blk t).view.read (Elt Ideal) (cellArr m c) := by
  have h7 : t.val % 8 = 7 := (flush0_5 t).mp hf
  have h0 : ¬ t.val % 8 = 0 := by omega
  rw [Value.flushed5, (outs_last m c t h0 h7).2]
  exact read_blk5 t _ _ fun r j B hB => cell_last m c t h7 r j B hB

/-- Row i of either result array lies in the block written back at the last step of row block i / 256. -/
theorem cover4 (i : S2048x1024.Idx) : ∃ t : Fin cfg0.N, (cfg0.win 4).flush t = true ∧ i ∈ ((cfg0.win 4).blk t).view.set := by
  have hi0 : (i 0).val < 2048 := (i 0).isLt
  have hi1 : (i 1).val < 1024 := (i 1).isLt
  have hN : 8 * ((i 0).val / 256) + 7 < cfg0.N := by rw [show cfg0.N = 64 from N_0]; omega
  refine ⟨⟨8 * ((i 0).val / 256) + 7, hN⟩, (flush0_4 _).mpr (by show (8 * ((i 0).val / 256) + 7) % 8 = 7; omega), ?_⟩
  obtain ⟨-, -, -, -, -, -, -, e0, e1, -⟩ := idx_facts ⟨8 * ((i 0).val / 256) + 7, hN⟩
  have e0' : win0_4.index ⟨8 * ((i 0).val / 256) + 7, hN⟩ (0 : Fin 2) = (i 0).val / 256 := by
    rw [e0]; show (8 * ((i 0).val / 256) + 7) / 8 = _; omega
  show i ∈ ((View.whole main_v1_0).slice (win0_4.rect ⟨8 * ((i 0).val / 256) + 7, hN⟩)).set
  rw [View.set_slice_whole, Rect.mem_set_unit]
  intro a
  match a with
  | ⟨0, _⟩ => show win0_4.index ⟨8 * ((i 0).val / 256) + 7, hN⟩ (0 : Fin 2) * 256 ≤ (i 0).val ∧ (i 0).val < win0_4.index ⟨8 * ((i 0).val / 256) + 7, hN⟩ (0 : Fin 2) * 256 + 256; rw [e0']; omega
  | ⟨1, _⟩ => show win0_4.index ⟨8 * ((i 0).val / 256) + 7, hN⟩ (1 : Fin 2) * 1024 ≤ (i 1).val ∧ (i 1).val < win0_4.index ⟨8 * ((i 0).val / 256) + 7, hN⟩ (1 : Fin 2) * 1024 + 1024; rw [e1]; omega

theorem cover5 (i : S2048x1024.Idx) : ∃ t : Fin cfg0.N, (cfg0.win 5).flush t = true ∧ i ∈ ((cfg0.win 5).blk t).view.set := by
  have hi0 : (i 0).val < 2048 := (i 0).isLt
  have hi1 : (i 1).val < 1024 := (i 1).isLt
  have hN : 8 * ((i 0).val / 256) + 7 < cfg0.N := by rw [show cfg0.N = 64 from N_0]; omega
  refine ⟨⟨8 * ((i 0).val / 256) + 7, hN⟩, (flush0_5 _).mpr (by show (8 * ((i 0).val / 256) + 7) % 8 = 7; omega), ?_⟩
  obtain ⟨-, -, -, -, -, -, -, -, -, e0, e1⟩ := idx_facts ⟨8 * ((i 0).val / 256) + 7, hN⟩
  have e0' : win0_5.index ⟨8 * ((i 0).val / 256) + 7, hN⟩ (0 : Fin 2) = (i 0).val / 256 := by
    rw [e0]; show (8 * ((i 0).val / 256) + 7) / 8 = _; omega
  show i ∈ ((View.whole main_v1_1).slice (win0_5.rect ⟨8 * ((i 0).val / 256) + 7, hN⟩)).set
  rw [View.set_slice_whole, Rect.mem_set_unit]
  intro a
  match a with
  | ⟨0, _⟩ => show win0_5.index ⟨8 * ((i 0).val / 256) + 7, hN⟩ (0 : Fin 2) * 256 ≤ (i 0).val ∧ (i 0).val < win0_5.index ⟨8 * ((i 0).val / 256) + 7, hN⟩ (0 : Fin 2) * 256 + 256; rw [e0']; omega
  | ⟨1, _⟩ => show win0_5.index ⟨8 * ((i 0).val / 256) + 7, hN⟩ (1 : Fin 2) * 1024 ≤ (i 1).val ∧ (i 1).val < win0_5.index ⟨8 * ((i 0).val / 256) + 7, hN⟩ (1 : Fin 2) * 1024 + 1024; rw [e1]; omega

/-- After the run the hidden-state array holds the specification's hidden state, -/
theorem final4 (c : Dev nD) : (dats m 0 c).arrAt 4 cfg0.N = hiddenArr m c :=
  (dats m 0 c).arrAt_eq_of_cover 4 (hiddenArr m c) (flushed4_eq m c) cover4

/-- and the cell-state array the specification's cell state. -/
theorem final5 (c : Dev nD) : (dats m 0 c).arrAt 5 cfg0.N = cellArr m c :=
  (dats m 0 c).arrAt_eq_of_cover 5 (cellArr m c) (flushed5_eq m c) cover5

/-- The kernel's run: every weakly fair execution ends with the two results at the specification's functions of the
    argument arrays, the arguments unchanged. -/
theorem run : θ_run defs (onTc (τ := τ) (main (F := Ideal))) ⟨m, fun _ => 0, ρ⟩ fun r => ∀ c : Dev nD,
      r.2.mem ((c : Thread nD τ).loc main_v1_0) = hiddenArr m c
      ∧ r.2.mem ((c : Thread nD τ).loc main_v1_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2⟩)
    (Value.run_blocks m ρ)

end Cert.KernelIdeal.KValue

end
-- ==== Proof.RefQuant.lean ====
/-
  The reference's quantizer stages, read at an index.

  The reference quantizes an array x elementwise: divide by the step 1/32, round half-even, clamp to [-128, 127],
  multiply by the step.  Each such run of stages, read at an index i, is the function `LstmCell.q` of the operand at i:
  the stages spell `LstmCell.qDiv`, and dividing by the step is multiplying by 32 (`LstmCell.qDiv_eq`).
-/
import proofs.«138739_j49331994362494_1_alg».proof.Proof.Gen.ReferenceIdeal.Read
import proofs.«138739_j49331994362494_1_alg».proof.Proof.Spec

noncomputable section

namespace Cert.ReferenceIdeal.RefValue

open Cert.ReferenceIdeal Cert.ReferenceIdeal.Read Idealize.ShloMosaic Idealize.ShloMosaic.ValueIdx

/-- The float word of one denotes the extended real 1. -/
theorem word_one : Ideal.ofBits .f32 0x3F800000#32 = (1 : EReal) := by
  simp [Ideal.ofBits, Ideal.ieee, -EReal.coe_mul]; norm_num

/-- The joined input, quantized. -/
theorem joined_q (x0 x1 : S2048x1024.Idx → EReal) (i : S2048x2048.Idx) :
    val_main_v6 (F := Ideal) x0 x1 i = LstmCell.q (val_main_v0 (F := Ideal) x0 x1 i) := by
  rw [← LstmCell.qDiv_eq, val_main_v6_apply, val_main_v4_apply, val_main_call1_v4_apply, val_main_call1_v3_apply, val_main_cst_1_apply, val_main_call1_v2_apply, val_main_call1_v1_apply, val_main_call1_v0_apply, val_main_cst_0_apply, val_main_v3_apply, val_main_v2_apply, val_main_v1_apply, val_main_cst_apply, val_main_v5_apply, val_main_cst_2_apply]
  rfl

/-- The weight, quantized. -/
theorem weight_q (x3 : S4096x2048.Idx → EReal) (i : S4096x2048.Idx) :
    val_main_v12 (F := Ideal) x3 i = LstmCell.q (x3 i) := by
  rw [← LstmCell.qDiv_eq, val_main_v12_apply, val_main_v10_apply, val_main_call3_v4_apply, val_main_call3_v3_apply, val_main_cst_5_apply, val_main_call3_v2_apply, val_main_call3_v1_apply, val_main_call3_v0_apply, val_main_cst_4_apply, val_main_v9_apply, val_main_v8_apply, val_main_v7_apply, val_main_cst_3_apply, val_main_v11_apply, val_main_cst_6_apply]
  rfl

/-- The bias, quantized. -/
theorem bias_q (x4 : S4096.Idx → EReal) (i : S4096.Idx) :
    val_main_v18 (F := Ideal) x4 i = LstmCell.q (x4 i) := by
  rw [← LstmCell.qDiv_eq, val_main_v18_apply, val_main_v16_apply, val_main_call5_v4_apply, val_main_call5_v3_apply, val_main_cst_9_apply, val_main_call5_v2_apply, val_main_call5_v1_apply, val_main_call5_v0_apply, val_main_cst_8_apply, val_main_v15_apply, val_main_v14_apply, val_main_v13_apply, val_main_cst_7_apply, val_main_v17_apply, val_main_cst_10_apply]
  rfl

/-- The previous cell state, quantized. -/
theorem state_q (x2 : S2048x1024.Idx → EReal) (i : S2048x1024.Idx) :
    val_main_v76 (F := Ideal) x2 i = LstmCell.q (x2 i) := by
  rw [← LstmCell.qDiv_eq, val_main_v76_apply, val_main_v74_apply, val_main_call15_v4_apply, val_main_call15_v3_apply, val_main_cst_35_apply, val_main_call15_v2_apply, val_main_call15_v1_apply, val_main_call15_v0_apply, val_main_cst_34_apply, val_main_v73_apply, val_main_v72_apply, val_main_v71_apply, val_main_cst_33_apply, val_main_v75_apply, val_main_cst_36_apply]
  rfl

/-- The input gate: the logistic function of the first slice of the pre-activation, quantized.  The stages spell the logistic function as 1 / (1 + exp (-y)), which is its definition. -/
theorem input_gate (x0 x1 : S2048x1024.Idx → EReal) (x3 : S4096x2048.Idx → EReal) (x4 : S4096.Idx → EReal) (i : S2048x1024.Idx) :
    val_main_v39 (F := Ideal) x0 x1 x3 x4 i = LstmCell.q (Ideal.logistic (val_main_v24 (F := Ideal) x0 x1 x3 x4 i)) := by
  rw [← LstmCell.qDiv_eq, val_main_v39_apply, val_main_v37_apply, val_main_call7_v4_apply, val_main_call7_v3_apply, val_main_cst_15_apply, val_main_call7_v2_apply, val_main_call7_v1_apply, val_main_call7_v0_apply, val_main_cst_14_apply, val_main_v36_apply, val_main_v35_apply, val_main_v33_apply, val_main_v32_apply, val_main_cst_12_apply, val_main_v31_apply, val_main_v30_apply, val_main_cst_11_apply, val_main_v29_apply, val_main_v28_apply, val_main_v34_apply, val_main_cst_13_apply, val_main_v38_apply, val_main_cst_16_apply]
  simp only [Ideal.ofBits_def]
  rw [word_one]
  rfl

/-- The forget gate: the logistic function of the second slice, quantized. -/
theorem forget_gate (x0 x1 : S2048x1024.Idx → EReal) (x3 : S4096x2048.Idx → EReal) (x4 : S4096.Idx → EReal) (i : S2048x1024.Idx) :
    val_main_v51 (F := Ideal) x0 x1 x3 x4 i = LstmCell.q (Ideal.logistic (val_main_v25 (F := Ideal) x0 x1 x3 x4 i)) := by
  rw [← LstmCell.qDiv_eq, val_main_v51_apply, val_main_v49_apply, val_main_call9_v4_apply, val_main_call9_v3_apply, val_main_cst_21_apply, val_main_call9_v2_apply, val_main_call9_v1_apply, val_main_call9_v0_apply, val_main_cst_20_apply, val_main_v48_apply, val_main_v47_apply, val_main_v45_apply, val_main_v44_apply, val_main_cst_18_apply, val_main_v43_apply, val_main_v42_apply, val_main_cst_17_apply, val_main_v41_apply, val_main_v40_apply, val_main_v46_apply, val_main_cst_19_apply, val_main_v50_apply, val_main_cst_22_apply]
  simp only [Ideal.ofBits_def]
  rw [word_one]
  rfl

/-- The candidate: tanh of the third slice, quantized. -/
theorem candidate (x0 x1 : S2048x1024.Idx → EReal) (x3 : S4096x2048.Idx → EReal) (x4 : S4096.Idx → EReal) (i : S2048x1024.Idx) :
    val_main_v58 (F := Ideal) x0 x1 x3 x4 i = LstmCell.q (Ideal.tanh (val_main_v26 (F := Ideal) x0 x1 x3 x4 i)) := by
  rw [← LstmCell.qDiv_eq, val_main_v58_apply, val_main_v56_apply, val_main_call11_v4_apply, val_main_call11_v3_apply, val_main_cst_25_apply, val_main_call11_v2_apply, val_main_call11_v1_apply, val_main_call11_v0_apply, val_main_cst_24_apply, val_main_v55_apply, val_main_v54_apply, val_main_v52_apply, val_main_v53_apply, val_main_cst_23_apply, val_main_v57_apply, val_main_cst_26_apply]
  simp only [Ideal.ofBits_def]
  rfl

/-- The output gate: the logistic function of the fourth slice, quantized. -/
theorem output_gate (x0 x1 : S2048x1024.Idx → EReal) (x3 : S4096x2048.Idx → EReal) (x4 : S4096.Idx → EReal) (i : S2048x1024.Idx) :
    val_main_v70 (F := Ideal) x0 x1 x3 x4 i = LstmCell.q (Ideal.logistic (val_main_v27 (F := Ideal) x0 x1 x3 x4 i)) := by
  rw [← LstmCell.qDiv_eq, val_main_v70_apply, val_main_v68_apply, val_main_call13_v4_apply, val_main_call13_v3_apply, val_main_cst_31_apply, val_main_call13_v2_apply, val_main_call13_v1_apply, val_main_call13_v0_apply, val_main_cst_30_apply, val_main_v67_apply, val_main_v66_apply, val_main_v64_apply, val_main_v63_apply, val_main_cst_28_apply, val_main_v62_apply, val_main_v61_apply, val_main_cst_27_apply, val_main_v60_apply, val_main_v59_apply, val_main_v65_apply, val_main_cst_29_apply, val_main_v69_apply, val_main_cst_32_apply]
  simp only [Ideal.ofBits_def]
  rw [word_one]
  rfl

/-- tanh of the new cell state, quantized. -/
theorem cell_tanh_q (x0 x1 x2 : S2048x1024.Idx → EReal) (x3 : S4096x2048.Idx → EReal) (x4 : S4096.Idx → EReal) (i : S2048x1024.Idx) :
    val_main_v86 (F := Ideal) x0 x1 x2 x3 x4 i = LstmCell.q (Ideal.tanh (val_main_v79 (F := Ideal) x0 x1 x2 x3 x4 i)) := by
  rw [← LstmCell.qDiv_eq, val_main_v86_apply, val_main_v84_apply, val_main_call17_v4_apply, val_main_call17_v3_apply, val_main_cst_39_apply, val_main_call17_v2_apply, val_main_call17_v1_apply, val_main_call17_v0_apply, val_main_cst_38_apply, val_main_v83_apply, val_main_v82_apply, val_main_v80_apply, val_main_v81_apply, val_main_cst_37_apply, val_main_v85_apply, val_main_cst_40_apply]
  rfl

end Cert.ReferenceIdeal.RefValue

end
-- ==== Proof.RefValue.lean ====
/-
  The reference computes the cell.

  Its pre-activation stage, read at row b and column n, is the sum over k < 2048 of the quantized joined input at
  (b, k) times the quantized weight at (n, k), plus the quantized bias at n: the product's right operand is the
  transposed weight, so position k of column n reads the weight at (n, k), and the bias is broadcast along the rows.
  The four gate slices of hidden unit j read the columns j, 1024 + j, 2048 + j and 3072 + j.  With the quantizer
  stages read at an index, the two results are `LstmCell.cellNew` and `LstmCell.hiddenNew` of the joined input, the
  weight, the bias and the previous cell state.
-/
import proofs.«138739_j49331994362494_1_alg».proof.Proof.RefQuant
import Idealize.ShloMosaic.Lib.ValueIdx

noncomputable section

namespace Cert.ReferenceIdeal.RefValue

open Cert.ReferenceIdeal Cert.ReferenceIdeal.Read Idealize.ShloMosaic Idealize.ShloMosaic.ValueIdx

/-- The product's left operand at result index (b, n) and position k is read at (b, k). -/
theorem left_idx (b : Fin 2048) (n : Fin 4096) (k : Fin 2048) : lidx_main_v20 (ix2 b n) k = ix2 b k :=
  funext fun a => Fin.ext (by
    match a with
    | ⟨0, _⟩ => rfl
    | ⟨1, _⟩ => rfl)

/-- The product's right operand is the transposed weight: at result index (b, n) and position k it reads the weight
    at (n, k). -/
theorem right_idx (b : Fin 2048) (n : Fin 4096) (k : Fin 2048) :
    idx_main_v19 (ridx_main_v20 (ix2 b n) k) = ix2 n k :=
  funext fun a => Fin.ext (by
    match a with
    | ⟨0, _⟩ => rfl
    | ⟨1, _⟩ => rfl)

/-- The bias is broadcast along the rows: at (b, n) it is read at n. -/
theorem bias_idx (b : Fin 2048) (n : Fin 4096) : idx_main_v21 (idx_main_v22 (ix2 b n)) = ix1 n :=
  funext fun a => Fin.ext (by
    match a with
    | ⟨0, _⟩ => rfl)

/-- The pre-activation stage at row b, column n. -/
theorem preact_eq (x0 x1 : S2048x1024.Idx → EReal) (x3 : S4096x2048.Idx → EReal) (x4 : S4096.Idx → EReal) (b : Fin 2048) (n : Fin 4096) :
    val_main_v23 (F := Ideal) x0 x1 x3 x4 (ix2 b n)
      = LstmCell.preact (val_main_v0 (F := Ideal) x0 x1) x3 x4 b n := by
  rw [val_main_v23_apply, val_main_v20_apply, val_main_v22_apply, val_main_v21_apply, bias_q, bias_idx, Ideal.addf_def]
  unfold LstmCell.preact
  congr 1
  refine Finset.sum_congr rfl fun k _ => ?_
  rw [val_main_v19_apply, weight_q, joined_q, left_idx, right_idx]

/-- The first slice keeps the columns below 1024: hidden unit j reads column j. -/
theorem slice0_idx (b : Fin 2048) (j : Fin 1024) :
    idx_main_v24 (ix2 b j) = ix2 b (LstmCell.gateCol 0 (by omega) j) :=
  funext fun a => Fin.ext (by
    match a with
    | ⟨0, _⟩ => rfl
    | ⟨1, _⟩ => show j.val = 1024 * 0 + j.val; omega)

/-- The second slice: hidden unit j reads column 1024 + j. -/
theorem slice1_idx (b : Fin 2048) (j : Fin 1024) :
    idx_main_v25 (ix2 b j) = ix2 b (LstmCell.gateCol 1 (by omega) j) :=
  funext fun a => Fin.ext (by
    match a with
    | ⟨0, _⟩ => rfl
    | ⟨1, _⟩ => show 1024 + j.val = 1024 * 1 + j.val; omega)

/-- The third slice: hidden unit j reads column 2048 + j. -/
theorem slice2_idx (b : Fin 2048) (j : Fin 1024) :
    idx_main_v26 (ix2 b j) = ix2 b (LstmCell.gateCol 2 (by omega) j) :=
  funext fun a => Fin.ext (by
    match a with
    | ⟨0, _⟩ => rfl
    | ⟨1, _⟩ => show 2048 + j.val = 1024 * 2 + j.val; omega)

/-- The fourth slice: hidden unit j reads column 3072 + j. -/
theorem slice3_idx (b : Fin 2048) (j : Fin 1024) :
    idx_main_v27 (ix2 b j) = ix2 b (LstmCell.gateCol 3 (by omega) j) :=
  funext fun a => Fin.ext (by
    match a with
    | ⟨0, _⟩ => rfl
    | ⟨1, _⟩ => show 3072 + j.val = 1024 * 3 + j.val; omega)

/-- The reference's new cell state is the specification's. -/
theorem cell_eq (x0 x1 x2 : S2048x1024.Idx → EReal) (x3 : S4096x2048.Idx → EReal) (x4 : S4096.Idx → EReal) :
    val_main_v79 (F := Ideal) x0 x1 x2 x3 x4 = LstmCell.cellNew (val_main_v0 (F := Ideal) x0 x1) x3 x4 x2 := by
  funext i
  obtain ⟨b, j, rfl⟩ : ∃ (b : Fin 2048) (j : Fin 1024), i = ix2 b j := ⟨i 0, i 1, eq_ix2 i⟩
  rw [val_main_v79_apply, val_main_v77_apply, val_main_v78_apply, state_q, forget_gate, input_gate, candidate,
    val_main_v24_apply, val_main_v25_apply, val_main_v26_apply, slice0_idx, slice1_idx, slice2_idx,
    preact_eq, preact_eq, preact_eq]
  rfl

/-- The reference's new hidden state is the specification's. -/
theorem hidden_eq (x0 x1 x2 : S2048x1024.Idx → EReal) (x3 : S4096x2048.Idx → EReal) (x4 : S4096.Idx → EReal) :
    val_main_v87 (F := Ideal) x0 x1 x2 x3 x4 = LstmCell.hiddenNew (val_main_v0 (F := Ideal) x0 x1) x3 x4 x2 := by
  funext i
  obtain ⟨b, j, rfl⟩ : ∃ (b : Fin 2048) (j : Fin 1024), i = ix2 b j := ⟨i 0, i 1, eq_ix2 i⟩
  rw [val_main_v87_apply, cell_tanh_q, output_gate, val_main_v27_apply, slice3_idx, preact_eq, cell_eq]
  rfl

end Cert.ReferenceIdeal.RefValue

end
-- ==== Proof.lean ====
/-
  A fused, quantized LSTM cell step, computed blockwise by a kernel, against its plain array reference: on the extended
  reals the two compute the same new hidden state and the same new cell state.

  Both programs join the input and the previous hidden state, quantize every operand to the 8-bit grid of step 1/32
  (scale, round half-even, clamp, scale back), form the pre-activation  y = q(xh) · q(w)ᵀ + q(bias),  pass its four
  1024-column slices through the logistic function (input, forget, output gates) and tanh (candidate), quantize them,
  and put  c' = q(c) · f + i · g,  h' = q(tanh c') · o.

  They differ in three places, none of which is a difference on the extended reals.  The kernel scales up by multiplying
  with 32 where the reference divides by 1/32: division by a non-zero real is multiplication by its reciprocal.  The
  kernel narrows the quantized operands to a 16-bit format before the matrix unit: a change of format is the identity.
  And the kernel contracts 256 positions at a time, accumulating the eight partial products of a row block from zero,
  where the reference contracts all 2048 positions at once: a finite sum may be cut into consecutive blocks and zero
  is neutral, in any commutative additive monoid, so no finiteness of the inputs is needed.  The reference spells the
  logistic function as 1 / (1 + exp (-y)), which is its definition.

  The kernel's run with both result arrays named is the generated blockwise value leg, read by hand into the
  specification (Spec.lean) in KValue.lean; the reference's run is generated and is read into the same specification
  in RefValue.lean.  The three frames are the generated ones; the idealization rewrote nothing.
-/
import proofs.«138739_j49331994362494_1_alg».proof.Defs
import proofs.«138739_j49331994362494_1_alg».proof.Proof.Gen.Kernel
import proofs.«138739_j49331994362494_1_alg».proof.Proof.Gen.Kernel.Frame
import proofs.«138739_j49331994362494_1_alg».proof.Proof.Gen.KernelIdeal
import proofs.«138739_j49331994362494_1_alg».proof.Proof.Gen.KernelIdeal.Frame
import proofs.«138739_j49331994362494_1_alg».proof.Proof.Gen.KernelIdeal.Value
import proofs.«138739_j49331994362494_1_alg».proof.Proof.Gen.ReferenceIdeal
import proofs.«138739_j49331994362494_1_alg».proof.Proof.Gen.ReferenceIdeal.Run
import proofs.«138739_j49331994362494_1_alg».proof.Proof.Gen.ReferenceIdeal.Read
import proofs.«138739_j49331994362494_1_alg».proof.Proof.Gen.Pre_finite_inputs
import proofs.«138739_j49331994362494_1_alg».proof.Proof.KValue
import proofs.«138739_j49331994362494_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's hidden state and cell state of arguments that agree. -/
theorem algebraic : Cert.algebraic_KernelIdeal_ReferenceIdeal := by
  intro m ρ m' ρ' _ hagree
  refine ⟨fun c => Cert.KernelIdeal.KValue.hiddenArr m c, fun c => Cert.KernelIdeal.KValue.cellArr m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v87_eq (F := Ideal) m' c).trans ?_
    refine (Cert.ReferenceIdeal.RefValue.hidden_eq _ _ _ _ _).trans ?_
    rw [(hagree c).1, (hagree c).2.1, (hagree c).2.2.1, (hagree c).2.2.2.1, (hagree c).2.2.2.2]
    rfl
  · refine (Cert.ReferenceIdeal.Read.val_main_v79_eq (F := Ideal) m' c).trans ?_
    refine (Cert.ReferenceIdeal.RefValue.cell_eq _ _ _ _ _).trans ?_
    rw [(hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
